-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x2048x2048 : Shape := ⟨3, ![16, 2048, 2048]⟩
abbrev S512x256 : Shape := ⟨2, ![512, 256]⟩
abbrev S256 : Shape := ⟨1, ![256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S16x2048x256 .f32) (main_arg1 : FVec F S16x2048x2048 .f32) (main_arg2 : FVec F S512x256 .f32) (main_arg3 : FVec F S256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S16x2048x256 : Shape := ⟨3, ![16, 2048, 256]⟩
abbrev S16x2048x2048 : Shape := ⟨3, ![16, 2048, 2048]⟩
abbrev S512x256 : Shape := ⟨2, ![512, 256]⟩
abbrev S256 : Shape := ⟨1, ![256]⟩
abbrev S1x256 : Shape := ⟨2, ![1, 256]⟩
abbrev S1x2048x256 : Shape := ⟨3, ![1, 2048, 256]⟩
abbrev S1x1024x2048 : Shape := ⟨3, ![1, 1024, 2048]⟩
abbrev S1x1024x256 : Shape := ⟨3, ![1, 1024, 256]⟩
abbrev S1024x2048 : Shape := ⟨2, ![1024, 2048]⟩
abbrev S2048x256 : Shape := ⟨2, ![2048, 256]⟩
abbrev S1024x256 : Shape := ⟨2, ![1024, 256]⟩
abbrev S256x256 : Shape := ⟨2, ![256, 256]⟩

abbrev nBuf : Space → Nat
  | .hbm => 6
  | .vmem => 10
  | .smem => 0
  | _ => 0

abbrev bufTy : (tb : Table) → Fin (tcTables nBuf tb) → BufTy
  | .hbm, ⟨0, _⟩ => ⟨S16x2048x256, .f32⟩
  | .hbm, ⟨1, _⟩ => ⟨S16x2048x2048, .f32⟩
  | .hbm, ⟨2, _⟩ => ⟨S512x256, .f32⟩
  | .hbm, ⟨3, _⟩ => ⟨S256, .f32⟩
  | .hbm, ⟨4, _⟩ => ⟨S1x256, .f32⟩
  | .hbm, ⟨5, _⟩ => ⟨S16x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1024x256, .f32⟩
  | .local _ .vmem, ⟨5, _⟩ => ⟨S1x1024x256, .f32⟩
  | .local _ .vmem, ⟨6, _⟩ => ⟨S512x256, .f32⟩
  | .local _ .vmem, ⟨7, _⟩ => ⟨S1x256, .f32⟩
  | .local _ .vmem, ⟨8, _⟩ => ⟨S1x1024x256, .f32⟩
  | .local _ .vmem, ⟨9, _⟩ => ⟨S1x1024x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S256_S1x256 : S256.ShapeCasts S1x256
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S512x256_S512x256_0_0 : ∀ a, (![0, 0] : Fin 2 → Nat) a + S512x256.size a ≤ S512x256.size a
  h_S512x256 : 0 < S512x256.numel
  slices_S512x256_o0_0_S256x256 : S512x256.Slices ![0, 0] S256x256
  slices_S512x256_o256_0_S256x256 : S512x256.Slices ![256, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S1x1024x256 : S1024x256.ShapeCasts S1x1024x256
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S16x2048x2048.size a
  hwx0_1 : ∀ i : grid0.Coords, EltTy.bits .f32 = 32 ∨ (Rect.block (s := S16x2048x2048) S1x1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x2048x256.size a
  hwx0_2 : ∀ i : grid0.Coords, EltTy.bits .f32 = 32 ∨ (Rect.block (s := S16x2048x256) S1x1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S16x2048x256.size a
  hwx0_5 : ∀ i : grid0.Coords, EltTy.bits .f32 = 32 ∨ (Rect.block (s := S16x2048x256) S1x1024x256.size (cc0_transform_5 i) (hinb0_5 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x2048x2048 : Shape := ⟨3, ![16, 2048, 2048]⟩
abbrev S512x256 : Shape := ⟨2, ![512, 256]⟩
abbrev S256 : Shape := ⟨1, ![256]⟩
abbrev S256x256 : Shape := ⟨2, ![256, 256]⟩
abbrev S1x1x256 : Shape := ⟨3, ![1, 1, 256]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x2048, .f32⟩
  | .hbm, ⟨2, _⟩ => ⟨S512x256, .f32⟩
  | .hbm, ⟨3, _⟩ => ⟨S256, .f32⟩
  | .hbm, ⟨4, _⟩ => ⟨S16x2048x256, .f32⟩
  | .hbm, ⟨5, _⟩ => ⟨S256x256, .f32⟩
  | .hbm, ⟨6, _⟩ => ⟨S16x2048x256, .f32⟩
  | .hbm, ⟨7, _⟩ => ⟨S256x256, .f32⟩
  | .hbm, ⟨8, _⟩ => ⟨S16x2048x256, .f32⟩
  | .hbm, ⟨9, _⟩ => ⟨S16x2048x256, .f32⟩
  | .hbm, ⟨10, _⟩ => ⟨S1x1x256, .f32⟩
  | .hbm, ⟨11, _⟩ => ⟨S16x2048x256, .f32⟩
  | .hbm, ⟨12, _⟩ => ⟨S16x2048x256, .f32⟩
  | .hbm, ⟨13, _⟩ => ⟨S_, .f32⟩
  | .hbm, ⟨14, _⟩ => ⟨S16x2048x256, .f32⟩
  | .hbm, ⟨15, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  slices_S512x256_S256x256_0_0 : S512x256.Slices ![0, 0] S256x256
  slices_S512x256_S256x256_256_0 : S512x256.Slices ![256, 0] S256x256
  bcast_S256_S1x1x256_2 : S256.BroadcastsInDim S1x1x256 (![2] : Fin 1 → Fin S1x1x256.rank)
  bcast_S1x1x256_S16x2048x256_0_1_2 : S1x1x256.BroadcastsInDim S16x2048x256 (![0, 1, 2] : Fin 3 → Fin S16x2048x256.rank)
  bcast_S_S16x2048x256 : S_.BroadcastsInDim S16x2048x256 (![] : Fin 0 → Fin S16x2048x256.rank)
  dot_S16x2048x2048_S16x2048x256_S16x2048x256_2_1_1_2_0_0_wf : DotDims.WF S16x2048x2048 S16x2048x256 S16x2048x256 [2] [1] [1] [2] [0] [0]
  dot_S16x2048x256_S256x256_S16x2048x256_2_0_01_1_n_n_wf : DotDims.WF S16x2048x256 S256x256 S16x2048x256 [2] [0] [0, 1] [1] [] []

variable [Facts₀]

def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf
def dot_S16x2048x256_S256x256_S16x2048x256_2_0_01_1_n_n : DotDims S16x2048x256 S256x256 S16x2048x256 where
  lhsContracting := [2]
  rhsContracting := [0]
  lhsNonContracting := [0, 1]
  rhsNonContracting := [1]
  lhsBatch := []
  rhsBatch := []
  wf := dot_S16x2048x256_S256x256_S16x2048x256_2_0_01_1_n_n_wf

class Facts : Prop extends Facts₀ where

variable [Facts]
-- ==== Proof.LibSharedFrame.lean ====
/-
  A frame run for a pipelined kernel whose windows may SHARE an array.

  When one argument array is handed to a kernel through several input windows (a matrix read whole by one window
  and tile by tile by another), the windows' arrays are not pairwise distinct buffers, and each window can hold its
  array only at a part of the full share.  The run below is the plain frame run with that one change: instead of
  asking that every window hold its array at the full share, it takes as a hypothesis how the DISTINCT buffers
  behind the windows, each whole at the full share, are dealt among the windows at the proof data's shares
  (`hsplit`).  Everything else is as for distinct arrays: the kernel has no semaphore of its own, carries nothing
  between grid points but what its staging buffers hold, its invariant is the core's scoped buffers that are no
  staging buffer, and every unscoped buffer that is no window's array bypasses the region and is read back
  unchanged.  The conclusion is the same post: every window's array at the contents the proof data compute after
  the last write-back, every other unscoped buffer as the region found it.
-/
import Idealize.ShloMosaic.Lib.Pipeline.Frame

noncomputable section

namespace Cert.LibSharedFrame

open Idealize.ShloMosaic Idealize.ShloMosaic.TcCoe Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

/-- The frame run of a kernel whose windows may share arrays: from any memory with zero counters every weakly fair
    execution of @main terminates, every array of the pipeline ends at what the proof data compute and every other
    unscoped buffer as the region found it.  `hsplit` deals the distinct buffers behind the windows' arrays, each
    whole at the full share at the region-entry contents, among the windows at the proof data's shares; `hin` and
    `hout` say the invariant at the first point is, and after the last point gives back, the scoped buffers that
    are no staging buffer. -/
theorem θ_run_frame_shared
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      · iexact H)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr
      · iempintro
      · iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibSharedFrame

end
-- ==== Proof.KernelIdeal.Body.lean ====
/-
  The kernel's body at one grid point, and the pipeline's proof data.

  At grid point (b, i) the body is handed six staging buffers: the whole feature matrix of batch entry b
  (window 0), rows 1024·i … 1024·i + 1023 of that entry's adjacency (window 1), the same rows of its feature matrix
  (window 2), the weight (window 3), the bias as a row (window 4), and the output tile (window 5).  It loads the five
  inputs whole, loads the output tile (a value it never uses), and stores ONE value over the whole output tile: the
  pure term `k0_pay1` of the five loaded blocks.  So after the body each input buffer holds what it held, and the
  output buffer reads `tileOut` of the five input blocks — whatever it held before.

  Windows 0 and 2 stage blocks of the SAME array (the features).  Both only read it, so the proof data hold it at
  the two halves of the full share, one half per window; every other input array is held whole.
-/
import proofs.«114370_j56779467653218_1_alg».proof.Proof.Gen.KernelIdeal.Launch
import proofs.«114370_j56779467653218_1_alg».proof.Proof.Gen.KernelIdeal.Skeleton
import proofs.«114370_j56779467653218_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation before it
    (the bias reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: an argument array is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output tile -/

abbrev rFull : Rect S1x2048x256 := Rect.unit (s := S1x2048x256) ![0, 0, 0] S1x2048x256.size inb_S1x2048x256_S1x2048x256_0_0_0
abbrev rAdj : Rect S1x1024x2048 := Rect.unit (s := S1x1024x2048) ![0, 0, 0] S1x1024x2048.size inb_S1x1024x2048_S1x1024x2048_0_0_0
abbrev rTile : Rect S1x1024x256 := Rect.unit (s := S1x1024x256) ![0, 0, 0] S1x1024x256.size inb_S1x1024x256_S1x1024x256_0_0_0
abbrev rW : Rect S512x256 := Rect.unit (s := S512x256) ![0, 0] S512x256.size inb_S512x256_S512x256_0_0
abbrev rBias : Rect S1x256 := Rect.unit (s := S1x256) ![0, 0] S1x256.size inb_S1x256_S1x256_0_0

/-- The output tile after the body, from the five input blocks: its one store, of the body's pure term of the
    five loads. -/
def tileOut (xfull : Vec F S1x2048x256 .f32) (a : Vec F S1x1024x2048 .f32) (xtile : Vec F S1x1024x256 .f32)
    (w : Vec F S512x256 .f32) (β : Vec F S1x256 .f32) : Vec F S1x1024x256 .f32 :=
  View.canon [⟨rTile, k0_pay1 (View.ld a rAdj) (View.ld xfull rFull) (View.ld xtile rTile) (View.ld w rW) (View.ld β rBias)⟩]

/-- The one store covers the tile. -/
theorem tile_cover (p0 : Vec F S1x1024x256 .f32) (y : S1x1024x256.Idx) :
    ∃ pc ∈ ([⟨rTile, p0⟩] : List (View.Piece (Elt F) S1x1024x256 .f32)), y ∈ pc.1.set :=
  View.cover_of_tiled [⟨rTile, p0⟩] S1x1024x256.size (by rfl) y

/-! ## The body's triple -/

set_option maxHeartbeats 1000000 in
/-- The body on whole staging memrefs — the inputs' at read contents, the output's at anything — runs to the
    continuation holding the inputs' as they were and the output's at `tileOut` of the inputs. -/
theorem sound_kernel (c : Dev nD) (E : Set ℕ) (i : grid0.Coords)
    (arg2 : Memref sig .tc .vmem S1x2048x256 .f32) (harg2 : arg2.IsWhole) (arg3 : Memref sig .tc .vmem S1x1024x2048 .f32) (harg3 : arg3.IsWhole)
    (arg4 : Memref sig .tc .vmem S1x1024x256 .f32) (harg4 : arg4.IsWhole) (arg5 : Memref sig .tc .vmem S512x256 .f32) (harg5 : arg5.IsWhole)
    (arg6 : Memref sig .tc .vmem S1x256 .f32) (harg6 : arg6.IsWhole) (arg7 : Memref sig .tc .vmem S1x1024x256 .f32) (harg7 : arg7.IsWhole)
    (x0 : Vec F S1x2048x256 .f32) (x1 : Vec F S1x1024x2048 .f32) (x2 : Vec F S1x1024x256 .f32) (x3 : Vec F S512x256 .f32) (x4 : Vec F S1x256 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (tileOut x0 x1 x2 x3 x4)) -∗ K ⟨⟩))
      ⊢ wp frame (wpE (defs₀ (F := F)) Variants.none c none) E (cc0__gcn_kernel i arg2 harg2 arg3 harg3 arg4 harg4 arg5 harg5 arg6 harg6 arg7 harg7) K := by
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-! ## The pipeline's proof data -/

/-- The proof data of the pipeline on core `c`: the arrays as the region finds them; after the body at point `t`
    each input's buffer at its block and the output's at `tileOut` of the input blocks; the invariant the scoped
    buffers that are no staging buffer, untouched; nothing owed.  The feature array is held at the left half of the
    full share by window 0 and at the right half by window 2; every other input array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.scopedRest spec0 c
  q w := match w with
    | ⟨0, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = tileOut (iblk m c 0 t) (iblk m c 1 t) (iblk m c 2 t) (iblk m c 3 t) (iblk m c 4 t) := by dsimp only [dats]

/-- An input window's current staging buffer holds the window's block at every point, fetched there or not: where
    it is not fetched the block index has not moved, and the body left the block in place (each window is uncut
    and never idle).  One statement per input window, the window a literal so that its block's shape computes. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Run.lean ====
/-
  The run of the whole program, and its frame.

  The pipeline's six windows stand on five distinct arrays: the features (windows 0 and 2), the adjacency, the
  weight, the bias row and the result.  At the region's entry each of the five is held whole at the full share.  The
  feature array's full share is cut into its two halves, one for each of the two windows that read it; the other
  arrays go to their one window whole.  With that deal the frame run for windows that share an array applies: every
  execution terminates, the result array ends at what the write-backs leave, and every argument array — read but
  never written back — ends as it was launched.
-/
import proofs.«114370_j56779467653218_1_alg».proof.Proof.KernelIdeal.Body
import proofs.«114370_j56779467653218_1_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The five arrays behind the six windows -/

/-- The distinct buffers behind the windows' arrays, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_arg1) ↦{fullShare} W main_arg1)
          ∗ (((c : Thread nD τ).loc main_arg2) ↦{fullShare} W main_arg2) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg0, main_arg1, main_arg2, main_v0, main_v1] (by decide) (by decide) _

/-- What each window holds of its array at the region's entry: the array whole, at the window's share, at the
    contents the region finds. -/
theorem arr0 (c : Dev nD) : ((cfg0.win 0).arr.view.loc (c.tc : Thread nD τ) ↦[(cfg0.win 0).arr.view.set]{(dats m 0 c).share 0} (dats m 0 c).arrAt 0 0 : sProp 𝕄)
    = (((c : Thread nD τ).loc main_arg0) ↦{fullShare.left} V m c main_arg0) := by
  rw [(arr_whole0 0).set_eq_univ]; rfl
theorem arr1 (c : Dev nD) : ((cfg0.win 1).arr.view.loc (c.tc : Thread nD τ) ↦[(cfg0.win 1).arr.view.set]{(dats m 0 c).share 1} (dats m 0 c).arrAt 1 0 : sProp 𝕄)
    = (((c : Thread nD τ).loc main_arg1) ↦{fullShare} V m c main_arg1) := by
  rw [(arr_whole0 1).set_eq_univ]; rfl
theorem arr2 (c : Dev nD) : ((cfg0.win 2).arr.view.loc (c.tc : Thread nD τ) ↦[(cfg0.win 2).arr.view.set]{(dats m 0 c).share 2} (dats m 0 c).arrAt 2 0 : sProp 𝕄)
    = (((c : Thread nD τ).loc main_arg0) ↦{fullShare.right} V m c main_arg0) := by
  rw [(arr_whole0 2).set_eq_univ]; rfl
theorem arr3 (c : Dev nD) : ((cfg0.win 3).arr.view.loc (c.tc : Thread nD τ) ↦[(cfg0.win 3).arr.view.set]{(dats m 0 c).share 3} (dats m 0 c).arrAt 3 0 : sProp 𝕄)
    = (((c : Thread nD τ).loc main_arg2) ↦{fullShare} V m c main_arg2) := by
  rw [(arr_whole0 3).set_eq_univ]; rfl
theorem arr4 (c : Dev nD) : ((cfg0.win 4).arr.view.loc (c.tc : Thread nD τ) ↦[(cfg0.win 4).arr.view.set]{(dats m 0 c).share 4} (dats m 0 c).arrAt 4 0 : sProp 𝕄)
    = (((c : Thread nD τ).loc main_v0) ↦{fullShare} V m c main_v0) := by
  rw [(arr_whole0 4).set_eq_univ]; rfl
theorem arr5 (c : Dev nD) : ((cfg0.win 5).arr.view.loc (c.tc : Thread nD τ) ↦[(cfg0.win 5).arr.view.set]{(dats m 0 c).share 5} (dats m 0 c).arrAt 5 0 : sProp 𝕄)
    = (((c : Thread nD τ).loc main_v1) ↦{fullShare} V m c main_v1) := by
  rw [(arr_whole0 5).set_eq_univ]; rfl

/-- The deal: the feature array's full share cut in its two halves, one per window on it; every other array to its
    one window, whole. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0, arr0, arr1, arr2, arr3, arr4, arr5]
  iintro ⟨H0, H1, H2, H3, H4⟩
  ihave H0' := (pointsTo_share (PosShare.mem_left_op_right fullShare)).1 $$ H0
  icases H0' with ⟨H0l, H0r⟩
  isplitl [H0l]; · iexact H0l
  isplitl [H1]; · iexact H1
  isplitl [H0r]; · iexact H0r
  isplitl [H2]; · iexact H2
  isplitl [H3]; · iexact H3
  iexact H4

/-! ## The run and the frame -/

-- the frame run's implicit arguments are found by unifying its conclusion with this one, which takes unfolding
-- plain definitions in a metavariable's type
set_option backward.isDefEq.respectTransparency.types false in
/-- From any memory with zero counters every weakly fair execution of @main terminates, and every final state has
    every array of the pipeline at what the write-backs leave and every other unscoped buffer as the region found
    it. -/
theorem run_main : θ_run defs (onTc (τ := τ) (main (F := F))) (s₀ m ρ) (Pipeline.FramePost cfgs (dats m) 0 (V m)) :=
  Cert.LibSharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hin := fun _ => .rfl) (hout := fun _ => .rfl)

/-- The frame: the program runs to the end, and its four argument arrays end as launched — the features, the
    adjacency and the weight as arrays the pipeline only reads, the bias as a buffer the region never touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end Cert.KernelIdeal.Hand

end
-- ==== Proof.Spec.lean ====
/-
  The function both programs compute, index by index over the extended reals.

  With features X : [16, 2048, 256], adjacency A : [16, 2048, 2048], weight W : [512, 256] and bias β : [256]:

    out[b, n, f] = max( Σ_d X[b, n, d] · W[d, f]  +  Σ_d (Σ_j A[b, n, j] · X[b, j, d]) · W[256 + d, f]  +  β[f] ,  0 )

  a graph-convolution layer: the node's own features through the top half of the weight, its neighbourhood
  aggregate A·X through the bottom half, a bias, and a rectifier.  `blockOut` is the same expression for one
  tile of 1024 rows of one batch entry, over the tile's own operands.
-/
import Idealize.ShloMosaic.PureOps.Ideal
import Idealize.ShloMosaic.Lib.ValueIdx

noncomputable section

namespace Cert.Spec

open Idealize.ShloMosaic Idealize.ShloMosaic.ValueIdx

/-- Row `k` of the top half of the weight. -/
abbrev wtop (k : Fin 256) : Fin 512 := ⟨k.val, by omega⟩
/-- Row `k` of the bottom half of the weight. -/
abbrev wbot (k : Fin 256) : Fin 512 := ⟨256 + k.val, by omega⟩

/-- One output element from its coordinates: batch `b`, node `n`, output feature `f`. -/
def outAt (X : (⟨3, ![16, 2048, 256]⟩ : Shape).Idx → EReal) (A : (⟨3, ![16, 2048, 2048]⟩ : Shape).Idx → EReal)
    (W : (⟨2, ![512, 256]⟩ : Shape).Idx → EReal) (β : (⟨1, ![256]⟩ : Shape).Idx → EReal)
    (b : Fin 16) (n : Fin 2048) (f : Fin 256) : EReal :=
  max ((∑ k : Fin 256, X (ix3 b n k) * W (ix2 (wtop k) f))
        + (∑ k : Fin 256, (∑ j : Fin 2048, A (ix3 b n j) * X (ix3 b j k)) * W (ix2 (wbot k) f))
        + β (ix1 f))
      (Ideal.ofBits .f32 0x00000000#32)

/-- The whole result array as one function of the four argument arrays. -/
def out (X : (⟨3, ![16, 2048, 256]⟩ : Shape).Idx → EReal) (A : (⟨3, ![16, 2048, 2048]⟩ : Shape).Idx → EReal)
    (W : (⟨2, ![512, 256]⟩ : Shape).Idx → EReal) (β : (⟨1, ![256]⟩ : Shape).Idx → EReal) :
    (⟨3, ![16, 2048, 256]⟩ : Shape).Idx → EReal :=
  fun i => outAt X A W β (i 0) (i 1) (i 2)

/-- One tile of the result from the tile's operands: `a` the tile's 1024 rows of one batch entry's adjacency,
    `xfull` that entry's whole feature matrix, `xtile` the tile's own 1024 feature rows, `w` the weight and
    `β` the bias as a row. -/
def blockOutAt (a : (⟨3, ![1, 1024, 2048]⟩ : Shape).Idx → EReal) (xfull : (⟨3, ![1, 2048, 256]⟩ : Shape).Idx → EReal)
    (xtile : (⟨3, ![1, 1024, 256]⟩ : Shape).Idx → EReal) (w : (⟨2, ![512, 256]⟩ : Shape).Idx → EReal)
    (β : (⟨2, ![1, 256]⟩ : Shape).Idx → EReal) (r : Fin 1024) (f : Fin 256) : EReal :=
  max ((∑ k : Fin 256, xtile (ix3 0 r k) * w (ix2 (wtop k) f))
        + (∑ k : Fin 256, (∑ j : Fin 2048, a (ix3 0 r j) * xfull (ix3 0 j k)) * w (ix2 (wbot k) f))
        + β (ix2 0 f))
      (Ideal.ofBits .f32 0x00000000#32)

end Cert.Spec

end
-- ==== Proof.BlockValue.lean ====
/-
  The value the kernel body stores, read at one index of its tile, is the specification's tile expression.

  The body computes, from the adjacency tile a : [1, 1024, 2048], the batch entry's whole feature matrix
  xfull : [1, 2048, 256], the tile's own feature rows xtile : [1, 1024, 256], the weight w : [512, 256] and the bias row
  β : [1, 256],

    stored[0, r, f] = max( Σ_k xtile[0, r, k] · w[k, f]  +  Σ_k (Σ_j a[0, r, j] · xfull[0, j, k]) · w[256 + k, f]  +  β[0, f] ,  0 )

  Over the extended reals the changes of float format are the identity, a product into a zero accumulator is the plain
  sum over the contraction coordinate, and the casts that drop or add the leading unit axis only rename an index; what
  remains is read off operation by operation.
-/
import proofs.«114370_j56779467653218_1_alg».proof.Proof.Gen.KernelIdeal.Skeleton
import proofs.«114370_j56779467653218_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.BlockValue
open Idealize.ShloMosaic Idealize.ShloMosaic.ValueIdx Cert.KernelIdeal Cert.KernelIdeal.Gen
variable [Cert.KernelIdeal.Facts]

/-! ## The operand indices of the [1024, 2048] × [2048, 256] product

At the result index (p, c) and contraction coordinate k the left operand is read at (p, k) and the right at (k, c). -/

theorem lhs_big_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_big_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_big_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_big_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The [1024, 2048] × [2048, 256] product into a zero accumulator, at (p, c): Σ_k x[p, k] · y[k, c]. -/
theorem matmul_big_apply (x : FVec Ideal S1024x2048 .bf16) (y : FVec Ideal S2048x256 .bf16) (p : Fin 1024) (c : Fin 256) :
    matmul dot_S1024x2048_S2048x256_S1024x256_1_0_0_1_n_n none x y (constant (F := Ideal) S1024x256 .f32 0x00000000#32) (ix2 p c)
      = ∑ k : Fin 2048, x (ix2 p k) * y (ix2 k c) := by
  refine (Ideal.matmul_constant_zero_apply dot_S1024x2048_S2048x256_S1024x256_1_0_0_1_n_n none x y (ix2 p c)).trans ?_
  rw [← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 p c) ((ValueIdx.contrEquiv1 dot_S1024x2048_S2048x256_S1024x256_1_0_0_1_n_n 2048 rfl rfl).symm k) = ix2 p k := funext fun a => Fin.ext (by
    match a with
    | ⟨0, _⟩ => exact lhs_big_0 _ _
    | ⟨1, _⟩ => exact (lhs_big_1 _ _).trans hk)
  have er : dot_S1024x2048_S2048x256_S1024x256_1_0_0_1_n_n.rhsIdx (ix2 p c) ((ValueIdx.contrEquiv1 dot_S1024x2048_S2048x256_S1024x256_1_0_0_1_n_n 2048 rfl rfl).symm k) = ix2 k c := funext fun a => Fin.ext (by
    match a with
    | ⟨0, _⟩ => exact (rhs_big_0 _ _).trans hk
    | ⟨1, _⟩ => exact rhs_big_1 _ _)
  rw [el, er]

/-! ## The operand indices of the [1024, 256] × [256, 256] product

At the result index (p, c) and contraction coordinate k the left operand is read at (p, k) and the right at (k, c). -/

theorem lhs_small_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_small_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_small_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_small_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The [1024, 256] × [256, 256] product into a zero accumulator, at (p, c): Σ_k x[p, k] · y[k, c]. -/
theorem matmul_small_apply (x : FVec Ideal S1024x256 .bf16) (y : FVec Ideal S256x256 .bf16) (p : Fin 1024) (c : Fin 256) :
    matmul dot_S1024x256_S256x256_S1024x256_1_0_0_1_n_n none x y (constant (F := Ideal) S1024x256 .f32 0x00000000#32) (ix2 p c)
      = ∑ k : Fin 256, x (ix2 p k) * y (ix2 k c) := by
  refine (Ideal.matmul_constant_zero_apply dot_S1024x256_S256x256_S1024x256_1_0_0_1_n_n none x y (ix2 p c)).trans ?_
  rw [← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p c) ((ValueIdx.contrEquiv1 dot_S1024x256_S256x256_S1024x256_1_0_0_1_n_n 256 rfl rfl).symm k) = ix2 p k := funext fun a => Fin.ext (by
    match a with
    | ⟨0, _⟩ => exact lhs_small_0 _ _
    | ⟨1, _⟩ => exact (lhs_small_1 _ _).trans hk)
  have er : dot_S1024x256_S256x256_S1024x256_1_0_0_1_n_n.rhsIdx (ix2 p c) ((ValueIdx.contrEquiv1 dot_S1024x256_S256x256_S1024x256_1_0_0_1_n_n 256 rfl rfl).symm k) = ix2 k c := funext fun a => Fin.ext (by
    match a with
    | ⟨0, _⟩ => exact (rhs_small_0 _ _).trans hk
    | ⟨1, _⟩ => exact rhs_small_1 _ _)
  rw [el, er]

/-! ## The operands of the products, read at an index

Each is a block with its leading unit axis dropped, or one half of the weight, then a change of float format, which over
the extended reals is the identity. -/

/-- The adjacency tile with its unit axis dropped, at (p, j): a[0, p, j]. -/
theorem adj_apply (v0 : Vec Ideal S1x1024x2048 .f32) (p : Fin 1024) (j : Fin 2048) :
    (truncf .bf16 (shapeCast S1024x2048 v0 shapeCasts_S1x1024x2048_S1024x2048 : FVec Ideal S1024x2048 .f32) bitsLt_bf16_f32 : FVec Ideal S1024x2048 .bf16) (ix2 p j)
      = v0 (ix3 0 p j) :=
  shapeCast_1ab_ab_apply v0 shapeCasts_S1x1024x2048_S1024x2048 p j

/-- The whole feature matrix with its unit axis dropped, at (j, k): xfull[0, j, k]. -/
theorem xfull_apply (v3 : Vec Ideal S1x2048x256 .f32) (j : Fin 2048) (k : Fin 256) :
    (truncf .bf16 (shapeCast S2048x256 v3 shapeCasts_S1x2048x256_S2048x256 : FVec Ideal S2048x256 .f32) bitsLt_bf16_f32 : FVec Ideal S2048x256 .bf16) (ix2 j k)
      = v3 (ix3 0 j k) :=
  shapeCast_1ab_ab_apply v3 shapeCasts_S1x2048x256_S2048x256 j k

/-- The tile's feature rows with their unit axis dropped, at (p, k): xtile[0, p, k]. -/
theorem xtile_apply (v7 : Vec Ideal S1x1024x256 .f32) (p : Fin 1024) (k : Fin 256) :
    (truncf .bf16 (shapeCast S1024x256 v7 shapeCasts_S1x1024x256_S1024x256 : FVec Ideal S1024x256 .f32) bitsLt_bf16_f32 : FVec Ideal S1024x256 .bf16) (ix2 p k)
      = v7 (ix3 0 p k) :=
  shapeCast_1ab_ab_apply v7 shapeCasts_S1x1024x256_S1024x256 p k

/-- The weight's rows 0 … 255, at (k, c): w[k, c]. -/
theorem wtop_apply (v10 : Vec Ideal S512x256 .f32) (k : Fin 256) (c : Fin 256) :
    (truncf .bf16 (extractStridedSlice S256x256 ![0, 0] v10 slices_S512x256_o0_0_S256x256 : FVec Ideal S256x256 .f32) bitsLt_bf16_f32 : FVec Ideal S256x256 .bf16) (ix2 k c)
      = v10 (ix2 (Cert.Spec.wtop k) c) :=
  slice2_axis0_apply 0 v10 slices_S512x256_o0_0_S256x256 k c (Cert.Spec.wtop k) (Nat.zero_add _).symm

/-- The weight's rows 256 … 511, at (k, c): w[256 + k, c]. -/
theorem wbot_apply (v10 : Vec Ideal S512x256 .f32) (k : Fin 256) (c : Fin 256) :
    (truncf .bf16 (extractStridedSlice S256x256 ![256, 0] v10 slices_S512x256_o256_0_S256x256 : FVec Ideal S256x256 .f32) bitsLt_bf16_f32 : FVec Ideal S256x256 .bf16) (ix2 k c)
      = v10 (ix2 (Cert.Spec.wbot k) c) :=
  slice2_axis0_apply 256 v10 slices_S512x256_o256_0_S256x256 k c (Cert.Spec.wbot k) rfl

/-- The bias row broadcast over the tile's rows, at (p, c): β[0, c]. -/
theorem bias_apply (v19 : Vec Ideal S1x256 .f32) (p : Fin 1024) (c : Fin 256) :
    (broadcastTo S1024x256 (shapeCast S1x256 v19 shapeCasts_S1x256_S1x256 : FVec Ideal S1x256 .f32) broadcasts_S1x256_S1024x256 : FVec Ideal S1024x256 .f32) (ix2 p c)
      = v19 (ix2 0 c) := by
  rw [shapeCast_self]
  exact broadcastTo_1b_ab_apply v19 broadcasts_S1x256_S1024x256 p c

/-! ## The three products -/

/-- The neighbourhood aggregate at (p, k): Σ_j a[0, p, j] · xfull[0, j, k]. -/
theorem agg_apply (v0 : Vec Ideal S1x1024x2048 .f32) (v3 : Vec Ideal S1x2048x256 .f32) (p : Fin 1024) (k : Fin 256) :
    matmul dot_S1024x2048_S2048x256_S1024x256_1_0_0_1_n_n none
        (truncf .bf16 (shapeCast S1024x2048 v0 shapeCasts_S1x1024x2048_S1024x2048 : FVec Ideal S1024x2048 .f32) bitsLt_bf16_f32 : FVec Ideal S1024x2048 .bf16)
        (truncf .bf16 (shapeCast S2048x256 v3 shapeCasts_S1x2048x256_S2048x256 : FVec Ideal S2048x256 .f32) bitsLt_bf16_f32 : FVec Ideal S2048x256 .bf16)
        (constant (F := Ideal) S1024x256 .f32 0x00000000#32) (ix2 p k)
      = ∑ j : Fin 2048, v0 (ix3 0 p j) * v3 (ix3 0 j k) := by
  refine (matmul_big_apply _ _ p k).trans ?_
  refine Finset.sum_congr rfl fun j _ => ?_
  rw [adj_apply, xfull_apply]

/-- The own-feature term at (p, c): Σ_k xtile[0, p, k] · w[k, c]. -/
theorem self_apply (v7 : Vec Ideal S1x1024x256 .f32) (v10 : Vec Ideal S512x256 .f32) (p : Fin 1024) (c : Fin 256) :
    matmul dot_S1024x256_S256x256_S1024x256_1_0_0_1_n_n none
        (truncf .bf16 (shapeCast S1024x256 v7 shapeCasts_S1x1024x256_S1024x256 : FVec Ideal S1024x256 .f32) bitsLt_bf16_f32 : FVec Ideal S1024x256 .bf16)
        (truncf .bf16 (extractStridedSlice S256x256 ![0, 0] v10 slices_S512x256_o0_0_S256x256 : FVec Ideal S256x256 .f32) bitsLt_bf16_f32 : FVec Ideal S256x256 .bf16)
        (constant (F := Ideal) S1024x256 .f32 0x00000000#32) (ix2 p c)
      = ∑ k : Fin 256, v7 (ix3 0 p k) * v10 (ix2 (Cert.Spec.wtop k) c) := by
  refine (matmul_small_apply _ _ p c).trans ?_
  refine Finset.sum_congr rfl fun k _ => ?_
  rw [xtile_apply, wtop_apply]

/-- The neighbourhood term at (p, c): Σ_k (Σ_j a[0, p, j] · xfull[0, j, k]) · w[256 + k, c]. Its left operand is the
    aggregate itself, so each of its factors is a sum. -/
theorem nbr_apply (v0 : Vec Ideal S1x1024x2048 .f32) (v3 : Vec Ideal S1x2048x256 .f32) (v10 : Vec Ideal S512x256 .f32)
    (p : Fin 1024) (c : Fin 256) :
    matmul dot_S1024x256_S256x256_S1024x256_1_0_0_1_n_n none
        (truncf .bf16 (matmul dot_S1024x2048_S2048x256_S1024x256_1_0_0_1_n_n none
            (truncf .bf16 (shapeCast S1024x2048 v0 shapeCasts_S1x1024x2048_S1024x2048 : FVec Ideal S1024x2048 .f32) bitsLt_bf16_f32 : FVec Ideal S1024x2048 .bf16)
            (truncf .bf16 (shapeCast S2048x256 v3 shapeCasts_S1x2048x256_S2048x256 : FVec Ideal S2048x256 .f32) bitsLt_bf16_f32 : FVec Ideal S2048x256 .bf16)
            (constant (F := Ideal) S1024x256 .f32 0x00000000#32) : FVec Ideal S1024x256 .f32) bitsLt_bf16_f32 : FVec Ideal S1024x256 .bf16)
        (truncf .bf16 (extractStridedSlice S256x256 ![256, 0] v10 slices_S512x256_o256_0_S256x256 : FVec Ideal S256x256 .f32) bitsLt_bf16_f32 : FVec Ideal S256x256 .bf16)
        (constant (F := Ideal) S1024x256 .f32 0x00000000#32) (ix2 p c)
      = ∑ k : Fin 256, (∑ j : Fin 2048, v0 (ix3 0 p j) * v3 (ix3 0 j k)) * v10 (ix2 (Cert.Spec.wbot k) c) := by
  refine (matmul_small_apply _ _ p c).trans ?_
  refine Finset.sum_congr rfl fun k _ => ?_
  rw [wbot_apply]
  exact congrArg (· * v10 (ix2 (Cert.Spec.wbot k) c)) (agg_apply v0 v3 p k)

/-! ## The stored value -/

/-- The value the body stores, at row `r` and column `f` of the tile. -/
theorem pay_at (v0 : Vec Ideal S1x1024x2048 .f32) (v3 : Vec Ideal S1x2048x256 .f32) (v7 : Vec Ideal S1x1024x256 .f32)
    (v10 : Vec Ideal S512x256 .f32) (v19 : Vec Ideal S1x256 .f32) (r : Fin 1024) (f : Fin 256) :
    k0_pay1 (F := Ideal) v0 v3 v7 v10 v19 (ValueIdx.ix3 0 r f) = Cert.Spec.blockOutAt v0 v3 v7 v10 v19 r f := by
  unfold k0_pay1 Cert.Spec.blockOutAt
  refine (shapeCast_ab_1ab_apply _ shapeCasts_S1024x256_S1x1024x256 0 r f).trans ?_
  refine congrArg₂ max (congrArg₂ (· + ·) (congrArg₂ (· + ·) ?_ ?_) ?_) rfl
  · exact self_apply v7 v10 r f
  · exact nbr_apply v0 v3 v10 r f
  · exact bias_apply v19 r f

end Cert.BlockValue

end
-- ==== Proof.KernelIdeal.Value.lean ====
/-
  The value of the idealized kernel: after the run the result array is the specification's array.

  Grid point t = (b, i) writes back one tile: rows 1024·i … 1024·i + 1023 of batch entry b.  What it writes is the
  body's stored value over the point's five input blocks, and each block entry that value reads is an entry of an
  argument array at batch b — the adjacency and the feature tile at rows 1024·i + r, the whole feature matrix at all
  rows, the weight and the bias whole.  Read at (0, r, f), the stored value is therefore the specification's element
  (b, 1024·i + r, f).  The 32 tiles cover the result array, so the array ends at the specification everywhere.
-/
import proofs.«114370_j56779467653218_1_alg».proof.Proof.KernelIdeal.Run
import proofs.«114370_j56779467653218_1_alg».proof.Proof.BlockValue
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The window's block indices over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: the whole-feature window follows the output's batch
    coordinate and stays at row block 0; the adjacency and feature-tile windows move with the output tile; the weight
    and the bias stay put; the output's block indices stay in their ranges. -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 3) = win0_5.index t (0 : Fin 3) ∧ win0_1.index t (1 : Fin 3) = win0_5.index t (1 : Fin 3) ∧ win0_1.index t (2 : Fin 3) = 0
    ∧ win0_2.index t (0 : Fin 3) = win0_5.index t (0 : Fin 3) ∧ win0_2.index t (1 : Fin 3) = win0_5.index t (1 : Fin 3) ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 15 ∧ win0_5.index t (1 : Fin 3) ≤ 1 ∧ win0_5.index t (2 : Fin 3) = 0 :=
  (by decide +kernel : ∀ t : Fin grid0.N, _)

/-- Every (batch entry, row tile) pair is SOME point's output block. -/
theorem idx_onto : ∀ (q0 : Fin 16) (q1 : Fin 2), ∃ t : Fin cfg0.N, win0_5.index t = ![q0.val, q1.val, 0] :=
  (by decide +kernel : ∀ (q0 : Fin 16) (q1 : Fin 2), ∃ t : Fin grid0.N, win0_5.index t = ![q0.val, q1.val, 0])

/-- The batch entry of point `t`. -/
def bOf (t : Fin cfg0.N) : Fin 16 := ⟨win0_5.index t (0 : Fin 3), by have := (idx_facts t).2.2.2.2.2.2.2.2.2.2.2.2.2.1; omega⟩
/-- Row `r` of point `t`'s tile, as a row of the batch entry. -/
def nOf (t : Fin cfg0.N) (r : Fin 1024) : Fin 2048 :=
  ⟨win0_5.index t (1 : Fin 3) * 1024 + r.val, by have := (idx_facts t).2.2.2.2.2.2.2.2.2.2.2.2.2.2.1; have := r.isLt; omega⟩

theorem bOf_val (t : Fin cfg0.N) : (bOf t).val = win0_5.index t (0 : Fin 3) := rfl
theorem nOf_val (t : Fin cfg0.N) (r : Fin 1024) : (nOf t r).val = win0_5.index t (1 : Fin 3) * 1024 + r.val := rfl

/-! ## The arrays the region finds, and each window's block read at an index -/

/-- The region finds the bias row as the bias reshaped: its entry (0, f) is the bias at f. -/
theorem V_bias_at (c : Dev nD) (f : Fin 256) :
    V m c main_v0 (ix2 0 f) = m ((c : Thread nD τ).loc main_arg3) (ix1 f) := by
  have e : (V m c main_v0 : S1x256.Idx → EReal) = shapeCast S1x256 (m ((c : Thread nD τ).loc main_arg3)) shapeCasts_S256_S1x256 := by
    dsimp only [V, hostOps0]; after_results; rfl
  rw [e]
  refine (shapeCast_addUnit_apply ![256] _ _ _).trans ?_
  exact congrArg _ (funext fun a => match a with | ⟨0, _⟩ => rfl)

/-- The whole-feature block of point `t` is batch entry `bOf t` of the feature array. -/
theorem full_at (c : Dev nD) (t : Fin cfg0.N) (j : Fin 2048) (k : Fin 256) :
    iblk m c 0 t (ix3 0 j k) = V m c main_arg0 (ix3 (bOf t) j k) := by
  obtain ⟨e0, e1, e2, -⟩ := idx_facts t
  show V m c main_arg0 (((cfg0.win 0).blk t).view.emb (ix3 0 j k)) = V m c main_arg0 (ix3 (bOf t) j k)
  refine congrArg _ (funext fun a => Fin.ext ?_)
  match a with
  | ⟨0, _⟩ => show win0_0.index t (0 : Fin 3) * 1 + 1 * 0 = win0_5.index t (0 : Fin 3); omega
  | ⟨1, _⟩ => show win0_0.index t (1 : Fin 3) * 2048 + 1 * j.val = j.val; omega
  | ⟨2, _⟩ => show win0_0.index t (2 : Fin 3) * 256 + 1 * k.val = k.val; omega

/-- The adjacency block of point `t`: rows `nOf t r` of batch entry `bOf t`. -/
theorem adj_at (c : Dev nD) (t : Fin cfg0.N) (r : Fin 1024) (j : Fin 2048) :
    iblk m c 1 t (ix3 0 r j) = V m c main_arg1 (ix3 (bOf t) (nOf t r) j) := by
  obtain ⟨-, -, -, e0, e1, e2, -⟩ := idx_facts t
  show V m c main_arg1 (((cfg0.win 1).blk t).view.emb (ix3 0 r j)) = V m c main_arg1 (ix3 (bOf t) (nOf t r) j)
  refine congrArg _ (funext fun a => Fin.ext ?_)
  match a with
  | ⟨0, _⟩ => show win0_1.index t (0 : Fin 3) * 1 + 1 * 0 = win0_5.index t (0 : Fin 3); omega
  | ⟨1, _⟩ => show win0_1.index t (1 : Fin 3) * 1024 + 1 * r.val = win0_5.index t (1 : Fin 3) * 1024 + r.val; omega
  | ⟨2, _⟩ => show win0_1.index t (2 : Fin 3) * 2048 + 1 * j.val = j.val; omega

/-- The feature-tile block of point `t`: the same rows of the feature array. -/
theorem tile_at (c : Dev nD) (t : Fin cfg0.N) (r : Fin 1024) (k : Fin 256) :
    iblk m c 2 t (ix3 0 r k) = V m c main_arg0 (ix3 (bOf t) (nOf t r) k) := by
  obtain ⟨-, -, -, -, -, -, e0, e1, e2, -⟩ := idx_facts t
  show V m c main_arg0 (((cfg0.win 2).blk t).view.emb (ix3 0 r k)) = V m c main_arg0 (ix3 (bOf t) (nOf t r) k)
  refine congrArg _ (funext fun a => Fin.ext ?_)
  match a with
  | ⟨0, _⟩ => show win0_2.index t (0 : Fin 3) * 1 + 1 * 0 = win0_5.index t (0 : Fin 3); omega
  | ⟨1, _⟩ => show win0_2.index t (1 : Fin 3) * 1024 + 1 * r.val = win0_5.index t (1 : Fin 3) * 1024 + r.val; omega
  | ⟨2, _⟩ => show win0_2.index t (2 : Fin 3) * 256 + 1 * k.val = k.val; omega

/-- The weight block is the whole weight. -/
theorem weight_at (c : Dev nD) (t : Fin cfg0.N) (p : Fin 512) (q : Fin 256) :
    iblk m c 3 t (ix2 p q) = V m c main_arg2 (ix2 p q) := by
  obtain ⟨-, -, -, -, -, -, -, -, -, e0, e1, -⟩ := idx_facts t
  show V m c main_arg2 (((cfg0.win 3).blk t).view.emb (ix2 p q)) = V m c main_arg2 (ix2 p q)
  refine congrArg _ (funext fun a => Fin.ext ?_)
  match a with
  | ⟨0, _⟩ => show win0_3.index t (0 : Fin 2) * 512 + 1 * p.val = p.val; omega
  | ⟨1, _⟩ => show win0_3.index t (1 : Fin 2) * 256 + 1 * q.val = q.val; omega

/-- The bias block is the whole bias row. -/
theorem bias_at (c : Dev nD) (t : Fin cfg0.N) (f : Fin 256) :
    iblk m c 4 t (ix2 0 f) = V m c main_v0 (ix2 0 f) := by
  obtain ⟨-, -, -, -, -, -, -, -, -, -, -, e0, e1, -⟩ := idx_facts t
  show V m c main_v0 (((cfg0.win 4).blk t).view.emb (ix2 0 f)) = V m c main_v0 (ix2 0 f)
  refine congrArg _ (funext fun a => Fin.ext ?_)
  match a with
  | ⟨0, _⟩ => show win0_4.index t (0 : Fin 2) * 1 + 1 * 0 = 0; omega
  | ⟨1, _⟩ => show win0_4.index t (1 : Fin 2) * 256 + 1 * f.val = f.val; omega

/-- Element (0, r, f) of point `t`'s output block sits at (`bOf t`, `nOf t r`, f) of the result array. -/
theorem out_emb (t : Fin cfg0.N) (r : Fin 1024) (f : Fin 256) :
    ((cfg0.win 5).blk t).view.emb (ix3 0 r f) = ix3 (bOf t) (nOf t r) f := by
  obtain ⟨-, -, -, -, -, -, -, -, -, -, -, -, -, -, -, e2⟩ := idx_facts t
  refine funext fun a => Fin.ext ?_
  match a with
  | ⟨0, _⟩ => show win0_5.index t (0 : Fin 3) * 1 + 1 * 0 = win0_5.index t (0 : Fin 3); omega
  | ⟨1, _⟩ => show win0_5.index t (1 : Fin 3) * 1024 + 1 * r.val = win0_5.index t (1 : Fin 3) * 1024 + r.val; omega
  | ⟨2, _⟩ => show win0_5.index t (2 : Fin 3) * 256 + 1 * f.val = f.val; omega

/-! ## What each point writes back -/

/-- The specification at the arrays the region finds. -/
def G (c : Dev nD) : S16x2048x256.Idx → EReal :=
  Cert.Spec.out (V m c main_arg0) (V m c main_arg1) (V m c main_arg2) (m ((c : Thread nD τ).loc main_arg3))

/-- The tile expression over point `t`'s blocks is the specification's element at the tile's place in the array:
    every block entry it reads is the array entry at batch `bOf t`, rows `nOf t ·`. -/
theorem tile_eq (c : Dev nD) (t : Fin cfg0.N) (r : Fin 1024) (f : Fin 256) :
    Cert.Spec.blockOutAt (iblk m c 1 t) (iblk m c 0 t) (iblk m c 2 t) (iblk m c 3 t) (iblk m c 4 t) r f
      = Cert.Spec.outAt (V m c main_arg0) (V m c main_arg1) (V m c main_arg2) (m ((c : Thread nD τ).loc main_arg3)) (bOf t) (nOf t r) f := by
  unfold Cert.Spec.blockOutAt Cert.Spec.outAt
  simp only [full_at, adj_at, tile_at, weight_at, bias_at]
  exact congrArg (fun z => max (_ + z) _) (V_bias_at m c f)

/-- What point `t` writes back is block `t` of the specification's array. -/
theorem flushed5_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold tileOut
  rw [View.canon_unit_zero hz3]
  simp only [View.ld_unit_zero (S := S1x2048x256) hz3, View.ld_unit_zero (S := S1x1024x2048) hz3,
    View.ld_unit_zero (S := S1x1024x256) hz3, View.ld_unit_zero (S := S512x256) hz2, View.ld_unit_zero (S := S1x256) hz2]
  funext j
  obtain ⟨z, r, f, rfl⟩ : ∃ (z : Fin 1) (r : Fin 1024) (f : Fin 256), j = ix3 z r f := ⟨j 0, j 1, j 2, eq_ix3 j⟩
  obtain rfl : z = 0 := Subsingleton.elim _ _
  show k0_pay1 (F := Ideal) (iblk m c 1 t) (iblk m c 0 t) (iblk m c 2 t) (iblk m c 3 t) (iblk m c 4 t) (ix3 0 r f)
    = G m c (((cfg0.win 5).blk t).view.emb (ix3 0 r f))
  rw [out_emb]
  refine (Cert.BlockValue.pay_at _ _ _ _ _ r f).trans ?_
  exact tile_eq m c t r f

/-! ## The blocks cover the array -/

/-- An index of the result array is in point `t`'s block iff each coordinate is in the block's range on its axis. -/
theorem mem_blk5 (t : Fin cfg0.N) (i : S16x2048x256.Idx) :
    i ∈ ((cfg0.win 5).blk t).view.set ↔ ∀ a : Fin 3, win0_5.index t a * S1x1024x256.size a ≤ (i a).val ∧ (i a).val < win0_5.index t a * S1x1024x256.size a + S1x1024x256.size a := by
  show i ∈ ((View.whole main_v1).slice (win0_5.rect t)).set ↔ _
  rw [View.set_slice_whole, Rect.mem_set_unit]
  exact Iff.rfl

/-- Every index (b, n, f) of the result is in the block of the point with batch entry b and row tile n / 1024. -/
theorem cover5 (i : S16x2048x256.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 256 := (i 2).isLt
  obtain ⟨t, ht⟩ := idx_onto ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 256 ≤ (i 2).val ∧ (i 2).val < win0_5.index t (2 : Fin 3) * 256 + 256; omega

/-- The result array after the run is the specification's array. -/
theorem final5 (c : Dev nD) : (dats m 0 c).arrAt 5 cfg0.N = G m c :=
  (dats m 0 c).arrAt_eq_of_cover 5 (G m c) (fun t _ => flushed5_eq m c t) cover5

/-! ## The run, read -/

/-- The program runs to the end with the result array at the specification of the launched arguments, and the
    arguments unchanged. -/
theorem run : θ_run defs (onTc (τ := τ) (main (F := Ideal))) ⟨m, fun _ => 0, ρ⟩ fun r => ∀ c : Dev nD,
      r.2.mem ((c.tc : Thread nD τ).loc main_v1)
        = Cert.Spec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 5).trans ((final5 m c).trans (by unfold G; rw [V_main_arg0, V_main_arg1, V_main_arg2])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end Cert.KernelIdeal.HandValue

end
-- ==== Proof.RefValue.lean ====
/-
  The reference's value is the specification.

  Reading the reference's last stage at an index (b, n, f), stage by stage: the rectifier is the maximum with the
  constant 0; below it the bias add reads β at f through two broadcasts; below that the sum of two contractions:
  X against the top half of the weight (rows k of a slice starting at row 0), and the aggregate A·X against the
  bottom half (rows 256 + k of a slice starting at row 256).  Each contraction is a finite sum whose operands are
  read at indices that are the specification's indices coordinate by coordinate.
-/
import proofs.«114370_j56779467653218_1_alg».proof.Proof.Gen.ReferenceIdeal.Read
import proofs.«114370_j56779467653218_1_alg».proof.Proof.Spec
import Idealize.ShloMosaic.Lib.ValueIdx
import Idealize.ShloMosaic.PureOps.Ideal

noncomputable section

namespace Cert.RefValue

open Idealize.ShloMosaic Idealize.ShloMosaic.ValueIdx Cert.ReferenceIdeal Cert.ReferenceIdeal.Read

/-! ## The composed index functions are the specification's indices -/

/-- The left operand of the top contraction is read at (b, n, k). -/
theorem lidx2_eq (b : Fin 16) (n : Fin 2048) (f : Fin 256) (k : Fin 256) :
    lidx_main_v2 (ix3 b n f) k = ix3 b n k :=
  funext fun a => Fin.ext (by match a with | ⟨0, _⟩ => rfl | ⟨1, _⟩ => rfl | ⟨2, _⟩ => rfl)

/-- The top slice of the weight, read at (k, f), is the weight at row k. -/
theorem idx1_eq (b : Fin 16) (n : Fin 2048) (f : Fin 256) (k : Fin 256) :
    idx_main_v1 (ridx_main_v2 (ix3 b n f) k) = ix2 (Cert.Spec.wtop k) f :=
  funext fun a => Fin.ext (by match a with | ⟨0, _⟩ => rfl | ⟨1, _⟩ => rfl)

/-- The left operand of the bottom contraction is the aggregate read at (b, n, k). -/
theorem lidx4_eq (b : Fin 16) (n : Fin 2048) (f : Fin 256) (k : Fin 256) :
    lidx_main_v4 (ix3 b n f) k = ix3 b n k :=
  funext fun a => Fin.ext (by match a with | ⟨0, _⟩ => rfl | ⟨1, _⟩ => rfl | ⟨2, _⟩ => rfl)

/-- The bottom slice of the weight, read at (k, f), is the weight at row 256 + k. -/
theorem idx3_eq (b : Fin 16) (n : Fin 2048) (f : Fin 256) (k : Fin 256) :
    idx_main_v3 (ridx_main_v4 (ix3 b n f) k) = ix2 (Cert.Spec.wbot k) f :=
  funext fun a => Fin.ext (by match a with | ⟨0, _⟩ => rfl | ⟨1, _⟩ => rfl)

/-- The adjacency operand of the aggregate at (b, n, k) is read at (b, n, j). -/
theorem lidx0_eq (b : Fin 16) (n : Fin 2048) (k : Fin 256) (j : Fin 2048) :
    lidx_main_v0 (ix3 b n k) j = ix3 b n j :=
  funext fun a => Fin.ext (by match a with | ⟨0, _⟩ => rfl | ⟨1, _⟩ => rfl | ⟨2, _⟩ => rfl)

/-- The feature operand of the aggregate at (b, n, k) is read at (b, j, k). -/
theorem ridx0_eq (b : Fin 16) (n : Fin 2048) (k : Fin 256) (j : Fin 2048) :
    ridx_main_v0 (ix3 b n k) j = ix3 b j k :=
  funext fun a => Fin.ext (by match a with | ⟨0, _⟩ => rfl | ⟨1, _⟩ => rfl | ⟨2, _⟩ => rfl)

/-- The bias, through its two broadcasts, is read at f. -/
theorem idx67_eq (b : Fin 16) (n : Fin 2048) (f : Fin 256) :
    idx_main_v6 (idx_main_v7 (ix3 b n f)) = ix1 f :=
  funext fun a => Fin.ext (by match a with | ⟨0, _⟩ => rfl)

/-! ## One element -/

/-- The reference's last stage at (b, n, f) is the specification's element. -/
theorem ref_at (x0 : (⟨Cert.ReferenceIdeal.S16x2048x256, .f32⟩ : BufTy).Contents (Elt Ideal))
    (x1 : (⟨Cert.ReferenceIdeal.S16x2048x2048, .f32⟩ : BufTy).Contents (Elt Ideal))
    (x2 : (⟨Cert.ReferenceIdeal.S512x256, .f32⟩ : BufTy).Contents (Elt Ideal))
    (x3 : (⟨Cert.ReferenceIdeal.S256, .f32⟩ : BufTy).Contents (Elt Ideal))
    (b : Fin 16) (n : Fin 2048) (f : Fin 256) :
    val_main_v9 (F := Ideal) x0 x1 x2 x3 (ix3 b n f) = Cert.Spec.outAt x0 x1 x2 x3 b n f := by
  rw [val_main_v9_apply, val_main_v8_apply, val_main_v5_apply, val_main_v2_apply, val_main_v4_apply,
    val_main_v7_apply, val_main_v6_apply, val_main_call0_v0_apply, val_main_call0_cst_apply, idx67_eq]
  unfold Cert.Spec.outAt
  rw [Ideal.maximumf_def, Ideal.addf_def, Ideal.addf_def, Ideal.ofBits_def]
  have h2 : (∑ k : Fin 256, x0 (lidx_main_v2 (ix3 b n f) k) * val_main_v1 (F := Ideal) x2 (ridx_main_v2 (ix3 b n f) k))
      = ∑ k : Fin 256, x0 (ix3 b n k) * x2 (ix2 (Cert.Spec.wtop k) f) :=
    Finset.sum_congr rfl fun k _ => by rw [val_main_v1_apply, lidx2_eq, idx1_eq]
  have h4 : (∑ k : Fin 256, val_main_v0 (F := Ideal) x0 x1 (lidx_main_v4 (ix3 b n f) k)
        * val_main_v3 (F := Ideal) x2 (ridx_main_v4 (ix3 b n f) k))
      = ∑ k : Fin 256, (∑ j : Fin 2048, x1 (ix3 b n j) * x0 (ix3 b j k)) * x2 (ix2 (Cert.Spec.wbot k) f) :=
    Finset.sum_congr rfl fun k _ => by
      rw [val_main_v3_apply, lidx4_eq, idx3_eq, val_main_v0_apply]
      refine congrArg (· * x2 (ix2 (Cert.Spec.wbot k) f)) ?_
      exact Finset.sum_congr rfl fun j _ => by rw [lidx0_eq, ridx0_eq]
  rw [h2, h4]

/-! ## The whole array -/

/-- The reference's last stage, read at the ideal values, is the specification's array. -/
theorem ref_eq (x0 : (⟨Cert.ReferenceIdeal.S16x2048x256, .f32⟩ : BufTy).Contents (Elt Ideal))
    (x1 : (⟨Cert.ReferenceIdeal.S16x2048x2048, .f32⟩ : BufTy).Contents (Elt Ideal))
    (x2 : (⟨Cert.ReferenceIdeal.S512x256, .f32⟩ : BufTy).Contents (Elt Ideal))
    (x3 : (⟨Cert.ReferenceIdeal.S256, .f32⟩ : BufTy).Contents (Elt Ideal)) :
    Cert.ReferenceIdeal.Read.val_main_v9 (F := Ideal) x0 x1 x2 x3 = Cert.Spec.out x0 x1 x2 x3 := by
  funext i
  obtain ⟨b, n, f, rfl⟩ : ∃ (b : Fin 16) (n : Fin 2048) (f : Fin 256), i = ValueIdx.ix3 b n f :=
    ⟨i 0, i 1, i 2, ValueIdx.eq_ix3 i⟩
  exact ref_at x0 x1 x2 x3 b n f
end Cert.RefValue

end
-- ==== Proof.lean ====
/-
  The certificate of a graph-convolution layer: a pipelined kernel against its array-level reference.

  Both programs compute, for features X : [16, 2048, 256], adjacency A : [16, 2048, 2048], weight W : [512, 256] and
  bias β : [256],

    out[b, n, f] = max( Σ_d X[b, n, d] · W[d, f]  +  Σ_d (Σ_j A[b, n, j] · X[b, j, d]) · W[256 + d, f]  +  β[f] ,  0 ).

  The kernel computes it tile by tile — 1024 rows of one batch entry per grid point — with three matrix products into
  zero accumulators on operands rounded to a narrower float format; over the extended reals the rounding is the
  identity and a product into a zero accumulator is the plain sum, so each tile is the specification restricted to
  the tile's rows (Proof/BlockValue.lean, Proof/KernelIdeal/Value.lean).  The reference computes it with whole-array
  contractions, slices of the weight, two adds, and a maximum with zero, which read index by index are the same
  expression (Proof/RefValue.lean).  No algebraic law beyond reading the two sides at an index is used, so the
  precondition (finite inputs) is never opened.

  The kernel reads the feature array through two windows, once whole per batch entry and once tile by tile; its frame
  holds that array at the two halves of the full share, one per window (Proof/LibSharedFrame.lean,
  Proof/KernelIdeal/Run.lean, and the same for the word-level program).  The idealization rewrote no operation, so
  there is nothing to preserve.
-/
import proofs.«114370_j56779467653218_1_alg».proof.Defs
import proofs.«114370_j56779467653218_1_alg».proof.Proof.Gen.Kernel
import proofs.«114370_j56779467653218_1_alg».proof.Proof.Gen.KernelIdeal
import proofs.«114370_j56779467653218_1_alg».proof.Proof.Gen.ReferenceIdeal
import proofs.«114370_j56779467653218_1_alg».proof.Proof.Gen.Pre_finite_inputs
import proofs.«114370_j56779467653218_1_alg».proof.Proof.Gen.ReferenceIdeal.Run
import proofs.«114370_j56779467653218_1_alg».proof.Proof.Gen.ReferenceIdeal.Read
import proofs.«114370_j56779467653218_1_alg».proof.Proof.Kernel.Run
import proofs.«114370_j56779467653218_1_alg».proof.Proof.KernelIdeal.Run
import proofs.«114370_j56779467653218_1_alg».proof.Proof.KernelIdeal.Value
import proofs.«114370_j56779467653218_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the specification's array of those
    arguments: the kernel tile by tile, the reference stage by stage. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.RefValue.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
